-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096x1 : Shape := ⟨3, ![16, 4096, 1]⟩
abbrev S16x1x4096 : Shape := ⟨3, ![16, 1, 4096]⟩
abbrev S1x512x3 : Shape := ⟨3, ![1, 512, 3]⟩
abbrev S1x4096x3 : Shape := ⟨3, ![1, 4096, 3]⟩
abbrev S1x512x1 : Shape := ⟨3, ![1, 512, 1]⟩
abbrev S1x1x4096 : Shape := ⟨3, ![1, 1, 4096]⟩
abbrev S512x3 : Shape := ⟨2, ![512, 3]⟩
abbrev S4096x3 : Shape := ⟨2, ![4096, 3]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S512x4096 : Shape := ⟨2, ![512, 4096]⟩
abbrev S1x4096 : Shape := ⟨2, ![1, 4096]⟩
abbrev S16x4096 : Shape := ⟨2, ![16, 4096]⟩
abbrev S_ : Shape := ⟨0, ![]⟩
abbrev S16 : Shape := ⟨1, ![16]⟩

abbrev nBuf : Space → Nat
  | .hbm => 21
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x1, .f32⟩
  | .hbm, ⟨3, _⟩ => ⟨S16x1x4096, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S512x3_S512 : S512x3.Reduces [1] S512
  shapeCasts_S512_S512x1 : S512.ShapeCasts S512x1
  reduces_S4096x3_S4096 : S4096x3.Reduces [1] S4096
  shapeCasts_S4096_S4096x1 : S4096.ShapeCasts S4096x1
  broadcasts_S512x1_S512x4096 : S512x1.Broadcasts S512x4096
  transposes_S4096x1_p1_0_S1x4096 : S4096x1.Transposes [1, 0] S1x4096
  broadcasts_S1x4096_S512x4096 : S1x4096.Broadcasts S512x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reduces_S512x4096_S4096 : S512x4096.Reduces [0] S4096
  shapeCasts_S4096_S1x4096 : S4096.ShapeCasts S1x4096
  shapeCasts_S16x4096x1_S16x4096 : S16x4096x1.ShapeCasts S16x4096
  shapeCasts_S16x1x4096_S16x4096 : S16x1x4096.ShapeCasts S16x4096
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  dot_S512x3_S4096x3_S512x4096_1_1_0_0_n_n_wf : DotDims.WF S512x3 S4096x3 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x4096x3.size a
  hwx0_0 : ∀ i : grid0.Coords, EltTy.bits .f32 = 32 ∨ (Rect.block (s := S16x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x4096x1.size a
  hwx0_2 : ∀ i : grid0.Coords, EltTy.bits .f32 = 32 ∨ (Rect.block (s := S16x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

def dot_S512x3_S4096x3_S512x4096_1_1_0_0_n_n : DotDims S512x3 S4096x3 S512x4096 where
  lhsContracting := [1]
  rhsContracting := [1]
  lhsNonContracting := [0]
  rhsNonContracting := [0]
  lhsBatch := []
  rhsBatch := []
  wf := dot_S512x3_S4096x3_S512x4096_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x4096, .f32⟩
  | .hbm, ⟨3, _⟩ => ⟨S16x4096x3, .f32⟩
  | .hbm, ⟨4, _⟩ => ⟨S_, .f32⟩
  | .hbm, ⟨5, _⟩ => ⟨S16x4096, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S16x4096x4096, .f32⟩
  | .hbm, ⟨15, _⟩ => ⟨S16x1x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S_S16x4096x4096 : S_.BroadcastsInDim S16x4096x4096 (![] : Fin 0 → Fin S16x4096x4096.rank)
  bcast_S16x4096x1_S16x4096x4096_0_1_2 : S16x4096x1.BroadcastsInDim S16x4096x4096 (![0, 1, 2] : Fin 3 → Fin S16x4096x4096.rank)
  bcast_S16x4096_S16x1x4096_0_2 : S16x4096.BroadcastsInDim S16x1x4096 (![0, 2] : Fin 2 → Fin S16x1x4096.rank)
  bcast_S16x1x4096_S16x4096x4096_0_1_2 : S16x1x4096.BroadcastsInDim S16x4096x4096 (![0, 1, 2] : Fin 3 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Spec.lean ====
/-
  The mathematics of the Chamfer distance between two batches of point clouds, stated once over the extended
  reals and independent of either program.

  For clouds `X, Y : [16, 4096, 3]` the squared distance between point `n` of `X` and point `m` of `Y` in batch `b` is
  expanded as `|x|² − 2·⟨x, y⟩ + |y|²`, associated as `(|x|² − 2·⟨x, y⟩) + |y|²`; each of the three terms is a sum over the
  three coordinates. `rowMin` is, for a point of `X`, the least distance to a point of `Y`; `colMin` is, for a point of `Y`,
  the least distance to a point of `X`. Both minima are folds of `min` starting from the value of the word of `+∞`.

  A minimum over all 4096 points of `X` can be taken 512 points at a time: `colPart … j` is the minimum over the first
  `512·j` points, it starts at `+∞` (`colPart_zero`), the next 512 points extend it by one more `min`
  (`colPart_succ`), and after eight steps it is `colMin` (`colPart_eight`). These are proved by the universal
  property of a fold of `min`: `c ≤ fold min b f s ↔ c ≤ b ∧ ∀ x ∈ s, c ≤ f x`; nothing about `+∞` itself is used,
  so no finiteness of the inputs is needed anywhere.
-/
import Idealize.ShloMosaic.PureOps.Ideal
import Idealize.ShloMosaic.PureOps.Ideal.Laws
import Idealize.ShloMosaic.Lib.ValueIdx
import Mathlib.Data.Finset.Fold

noncomputable section

namespace Cert.Chamfer

open Idealize.ShloMosaic Idealize.ShloMosaic.ValueIdx

/-- A batch of 16 clouds of 4096 points in three coordinates, over the extended reals. -/
abbrev Clouds : Type := (⟨3, ![16, 4096, 3]⟩ : Shape).Idx → EReal

/-- The extended real the word of `2.0` denotes. -/
abbrev two : EReal := Ideal.ofBits .f32 0x40000000#32
/-- The extended real the word of `+∞` denotes: where every minimum starts. -/
abbrev inf : EReal := Ideal.ofBits .f32 0x7F800000#32

/-- `|x|²`: the sum of the squares of the three coordinates of point `n` of batch `b`. -/
def sq (X : Clouds) (b : Fin 16) (n : Fin 4096) : EReal := ∑ k : Fin 3, X (ix3 b n k) * X (ix3 b n k)

/-- `⟨x, y⟩`: the inner product of point `n` of `X` and point `m` of `Y` in batch `b`. -/
def cross (X Y : Clouds) (b : Fin 16) (n m : Fin 4096) : EReal := ∑ k : Fin 3, X (ix3 b n k) * Y (ix3 b m k)

/-- The squared distance, expanded: `(|x|² − 2·⟨x, y⟩) + |y|²`. -/
def dist (X Y : Clouds) (b : Fin 16) (n m : Fin 4096) : EReal := sq X b n - two * cross X Y b n m + sq Y b m

/-- The least squared distance from point `n` of `X` to a point of `Y`. -/
def rowMin (X Y : Clouds) (b : Fin 16) (n : Fin 4096) : EReal :=
  (Finset.univ : Finset (Fin 4096)).fold min inf (fun m => dist X Y b n m)

/-- The least squared distance from point `m` of `Y` to a point of `X`. -/
def colMin (X Y : Clouds) (b : Fin 16) (m : Fin 4096) : EReal :=
  (Finset.univ : Finset (Fin 4096)).fold min inf (fun n => dist X Y b n m)

/-- The least squared distance from point `m` of `Y` to one of the first `512·j` points of `X`. -/
def colPart (X Y : Clouds) (b : Fin 16) (m : Fin 4096) (j : ℕ) : EReal :=
  (Finset.univ.filter fun n : Fin 4096 => n.val < 512 * j).fold min inf (fun n => dist X Y b n m)

/-- Over no points the minimum is where it starts. -/
theorem colPart_zero (X Y : Clouds) (b : Fin 16) (m : Fin 4096) : colPart X Y b m 0 = inf := by
  unfold colPart
  rw [Finset.filter_false_of_mem (fun n _ => by omega), Finset.fold_empty]

/-- The next 512 points (`row r` is point `512·j + r`) extend the minimum over the first `512·j` by one `min` with their own
    minimum. -/
theorem colPart_succ (X Y : Clouds) (b : Fin 16) (m : Fin 4096) (j : ℕ) (hj : j < 8) (row : Fin 512 → Fin 4096)
    (hrow : ∀ r, (row r).val = 512 * j + r.val) :
    colPart X Y b m (j + 1)
      = min (colPart X Y b m j) ((Finset.univ : Finset (Fin 512)).fold min inf (fun r => dist X Y b (row r) m)) := by
  refine eq_of_forall_le_iff fun c => ?_
  unfold colPart
  simp only [le_min_iff, Finset.le_fold_min, Finset.mem_filter, Finset.mem_univ, true_and, forall_true_left]
  constructor
  · rintro ⟨h0, h⟩
    exact ⟨⟨h0, fun n hn => h n (by omega)⟩, h0, fun r => h (row r) (by rw [hrow]; have := r.isLt; omega)⟩
  · rintro ⟨⟨h0, h1⟩, -, h2⟩
    refine ⟨h0, fun n hn => ?_⟩
    by_cases hlt : n.val < 512 * j
    · exact h1 n hlt
    · have hr : n.val - 512 * j < 512 := by omega
      have e : row ⟨n.val - 512 * j, hr⟩ = n := Fin.ext (by rw [hrow]; show 512 * j + (n.val - 512 * j) = n.val; omega)
      rw [← e]; exact h2 _

/-- After eight steps every point has been met. -/
theorem colPart_eight (X Y : Clouds) (b : Fin 16) (m : Fin 4096) : colPart X Y b m 8 = colMin X Y b m := by
  unfold colPart colMin
  rw [Finset.filter_true_of_mem (fun n _ => by have := n.isLt; omega)]

end Cert.Chamfer

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.LibMinReduce.lean ====
/-
  A MINIMUM taken along one axis, read at an index given by coordinates, on the extended reals (where `minimumf` is
  `min`, which commutes and associates, so the order a reduction folds in does not matter):
  • a lane reduction `<minimumf>` over ONE axis is, at each kept index, the fold of `min` from the accumulator's value
    over that axis's coordinates (`multiReduction_minimumf_single`, the companion of the library's maximum);
  • for a matrix `[a, b]`: along the last axis, read at row `p`, the fold over the columns of row `p`
    (`multiReduction_minimumf_rows_apply`); along the first axis, read at column `q`, the fold over the rows of column
    `q` (`multiReduction_minimumf_cols_apply`);
  • the host's one-operand `reduce … minimum` of a rank-3 array `[a, b, c]`: over the last axis, read at `(i, j)`, the
    fold over `k` of the entries `(i, j, k)` (`hostReduce_minimumf_last_apply`); over the middle axis, read at
    `(i, k)`, the fold over `j` (`hostReduce_minimumf_mid_apply`); both start from the initial value's one element.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A float `vector.multi_reduction <minimumf>` over one axis, read at `Ideal`: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the last axis of an `[a, b]` matrix, read at row `p`: the fold of `min` over the columns. -/
theorem multiReduction_minimumf_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.minimumf.neutral .f32 hφ)
    (p : Fin a) :
    multiReduction .minimumf [1] ⟨1, ![a]⟩ src acc h hφ hacc (ix1 p)
      = (Finset.univ : Finset (Fin b)).fold min (Ideal.ofBits .f32 acc) (fun q => src (ix2 p q)) := by
  refine (multiReduction_minimumf_single src acc h hφ hacc (ix1 p)).trans ?_
  refine congrArg (fun f => (Finset.univ : Finset (Fin b)).fold min (Ideal.ofBits .f32 acc) f) (funext fun q => ?_)
  refine congrArg src (funext fun ax => Fin.ext ?_)
  match ax with
  | ⟨0, _⟩ => rfl
  | ⟨1, _⟩ => rfl

/-- The minimum along the first axis of an `[a, b]` matrix, read at column `q`: the fold of `min` over the rows. -/
theorem multiReduction_minimumf_cols_apply {a b : ℕ} (src : FVec Ideal ⟨2, ![a, b]⟩ .f32) (acc : BitVec 32)
    (h : (⟨2, ![a, b]⟩ : Shape).Reduces [0] ⟨1, ![b]⟩) (hφ : FKind.Formats FTy.f32) (hacc : acc = FKind.minimumf.neutral .f32 hφ)
    (q : Fin b) :
    multiReduction .minimumf [0] ⟨1, ![b]⟩ src acc h hφ hacc (ix1 q)
      = (Finset.univ : Finset (Fin a)).fold min (Ideal.ofBits .f32 acc) (fun p => src (ix2 p q)) := by
  refine (multiReduction_minimumf_single src acc h hφ hacc (ix1 q)).trans ?_
  refine congrArg (fun f => (Finset.univ : Finset (Fin a)).fold min (Ideal.ofBits .f32 acc) f) (funext fun p => ?_)
  refine congrArg src (funext fun ax => Fin.ext ?_)
  match ax with
  | ⟨0, _⟩ => rfl
  | ⟨1, _⟩ => rfl

/-- The host's `reduce … minimum` over the LAST axis of an `[a, b, c]` array, read at `(i, j)`. -/
theorem hostReduce_minimumf_last_apply {a b c : ℕ} {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.minimumf x init h' hu (ix2 i j)
      = (Finset.univ : Finset (Fin c)).fold min (init (Shape.Idx.first hu)) (fun k => x (ix3 i j k)) := by
  refine (Host.reduce_eq_fold_single FloatOps.minimumf x init h' h hu (ix2 i j)).trans ?_
  refine congrArg (fun f => (Finset.univ : Finset (Fin c)).fold min (init (Shape.Idx.first hu)) f) (funext fun k => ?_)
  refine congrArg x (funext fun ax => Fin.ext ?_)
  match ax with
  | ⟨0, _⟩ => rfl
  | ⟨1, _⟩ => rfl
  | ⟨2, _⟩ => rfl

/-- The host's `reduce … minimum` over the MIDDLE axis of an `[a, b, c]` array, read at `(i, k)`. -/
theorem hostReduce_minimumf_mid_apply {a b c : ℕ} {u : Shape} (x : FVec Ideal ⟨3, ![a, b, c]⟩ .f32) (init : FVec Ideal u .f32)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce FloatOps.minimumf x init h' hu (ix2 i k)
      = (Finset.univ : Finset (Fin b)).fold min (init (Shape.Idx.first hu)) (fun j => x (ix3 i j k)) := by
  refine (Host.reduce_eq_fold_single FloatOps.minimumf x init h' h hu (ix2 i k)).trans ?_
  refine congrArg (fun f => (Finset.univ : Finset (Fin b)).fold min (init (Shape.Idx.first hu)) f) (funext fun j => ?_)
  refine congrArg x (funext fun ax => Fin.ext ?_)
  match ax with
  | ⟨0, _⟩ => rfl
  | ⟨1, _⟩ => rfl
  | ⟨2, _⟩ => rfl

end Idealize.ShloMosaic.ValueIdx
-- ==== Proof.Payload.lean ====
/-
  The kernel body's arithmetic read at an index, on the extended reals.

  For an input block `x0 : [1, 512, 3]` (512 points of the first cloud) and `x1 : [1, 4096, 3]` (all points of the
  second), the body forms the [512, 4096] table of squared distances `bdist x0 x1 r q = (|x0ᵣ|² − 2·⟨x0ᵣ, x1_q⟩) + |x1_q|²`:
  the row norms are a lane sum kept as a column and spread along the columns, the column norms a lane sum transposed to a row
  and spread along the rows, the inner products a matrix product into a zero accumulator (contracting the three
  coordinates of both operands). Then
    • the row payload at `(0, r, 0)` is the fold of `min` from `+∞` over the columns of row `r` of that table;
    • the column payload at `(0, 0, q)` is `min` of the block's previous entry and the fold of `min` from `+∞` over the
      rows of column `q`;
    • the reset payload is `+∞` everywhere.
-/
import proofs.«152326_j19705309954521_1_alg».proof.Proof.Gen.KernelIdeal.Skeleton
import proofs.«152326_j19705309954521_1_alg».proof.Proof.Spec
import proofs.«152326_j19705309954521_1_alg».proof.Proof.LibKeepdims
import proofs.«152326_j19705309954521_1_alg».proof.Proof.LibMinReduce
import Idealize.ShloMosaic.Lib.ValueLayout

noncomputable section

open Idealize.ShloMosaic Idealize.ShloMosaic.ValueIdx

namespace Cert.Chamfer.KI

open Cert.KernelIdeal Cert.KernelIdeal.Gen

/-- The squared distance between point `r` of the block `x0` and point `q` of the block `x1`, expanded. -/
def bdist (x0 : Vec Ideal S1x512x3 .f32) (x1 : Vec Ideal S1x4096x3 .f32) (r : Fin 512) (q : Fin 4096) : EReal :=
  (∑ k : Fin 3, x0 (ix3 (0 : Fin 1) r k) * x0 (ix3 (0 : Fin 1) r k))
    - Chamfer.two * (∑ k : Fin 3, x0 (ix3 (0 : Fin 1) r k) * x1 (ix3 (0 : Fin 1) q k))
    + ∑ k : Fin 3, x1 (ix3 (0 : Fin 1) q k) * x1 (ix3 (0 : Fin 1) q k)

section Terms
variable {F : FTy → Type} [FloatOps F]

/-- The squared norms of the 512 points of `x0`, one per row, spread along the 4096 columns. -/
def rowNorms (x0 : Vec F S1x512x3 .f32) : FVec F S512x4096 .f32 :=
  broadcastTo S512x4096 (shapeCast S512x1 (multiReduction .add [1] S512
    (mulf (shapeCast S512x3 x0 shapeCasts_S1x512x3_S512x3) (shapeCast S512x3 x0 shapeCasts_S1x512x3_S512x3))
    0x00000000#32 reduces_S512x3_S512 (.inl rfl) rfl) shapeCasts_S512_S512x1) broadcasts_S512x1_S512x4096

/-- The squared norms of the 4096 points of `x1`, one per column, spread along the 512 rows. -/
def colNorms (x1 : Vec F S1x4096x3 .f32) : FVec F S512x4096 .f32 :=
  broadcastTo S512x4096 (transpose S1x4096 [1, 0] (shapeCast S4096x1 (multiReduction .add [1] S4096
    (mulf (shapeCast S4096x3 x1 shapeCasts_S1x4096x3_S4096x3) (shapeCast S4096x3 x1 shapeCasts_S1x4096x3_S4096x3))
    0x00000000#32 reduces_S4096x3_S4096 (.inl rfl) rfl) shapeCasts_S4096_S4096x1) transposes_S4096x1_p1_0_S1x4096)
    broadcasts_S1x4096_S512x4096

/-- The inner products of every point of `x0` with every point of `x1`. -/
def inner (x0 : Vec F S1x512x3 .f32) (x1 : Vec F S1x4096x3 .f32) : FVec F S512x4096 .f32 :=
  matmul dot_S512x3_S4096x3_S512x4096_1_1_0_0_n_n none (shapeCast S512x3 x0 shapeCasts_S1x512x3_S512x3)
    (shapeCast S4096x3 x1 shapeCasts_S1x4096x3_S4096x3) (constant S512x4096 .f32 0x00000000#32)

/-- The distance payload is `(rowNorms − 2·inner) + colNorms`. -/
theorem pay2_eq (x0 : Vec F S1x512x3 .f32) (x1 : Vec F S1x4096x3 .f32) :
    k0_pay2 x0 x1 = addf (subf (rowNorms x0) (mulf (broadcast S512x4096 (Scalar.ofBits .f32 0x40000000#32)) (inner x0 x1)))
      (colNorms x1) := rfl

end Terms

/-- A row norm at `(r, q)`: the sum of the squares of the three coordinates of point `r`. -/
theorem rowNorms_apply (x0 : Vec Ideal S1x512x3 .f32) (r : Fin 512) (q : Fin 4096) :
    rowNorms x0 (ix2 r q) = ∑ k : Fin 3, x0 (ix3 (0 : Fin 1) r k) * x0 (ix3 (0 : Fin 1) r k) := by
  unfold rowNorms
  refine (broadcastTo_a1_ab_apply _ _ r q).trans ((shapeCast_a_a1_apply _ _ r 0).trans
    ((multiReduction_add_rows_apply _ _ _ _ _ r).trans (Finset.sum_congr rfl fun k _ => ?_)))
  show shapeCast S512x3 x0 shapeCasts_S1x512x3_S512x3 (ix2 r k) * shapeCast S512x3 x0 shapeCasts_S1x512x3_S512x3 (ix2 r k) = _
  rw [shapeCast_1ab_ab_apply]

/-- A column norm at `(r, q)`: the sum of the squares of the three coordinates of point `q`. -/
theorem colNorms_apply (x1 : Vec Ideal S1x4096x3 .f32) (r : Fin 512) (q : Fin 4096) :
    colNorms x1 (ix2 r q) = ∑ k : Fin 3, x1 (ix3 (0 : Fin 1) q k) * x1 (ix3 (0 : Fin 1) q k) := by
  unfold colNorms
  refine (broadcastTo_1b_ab_apply _ _ r q).trans ((transpose_ix2_apply _ _ 0 q).trans ((shapeCast_a_a1_apply _ _ q 0).trans
    ((multiReduction_add_rows_apply _ _ _ _ _ q).trans (Finset.sum_congr rfl fun k _ => ?_))))
  show shapeCast S4096x3 x1 shapeCasts_S1x4096x3_S4096x3 (ix2 q k) * shapeCast S4096x3 x1 shapeCasts_S1x4096x3_S4096x3 (ix2 q k) = _
  rw [shapeCast_1ab_ab_apply]

theorem lhs_inner_0 (i : S512x4096.Idx) (p : dot_S512x3_S4096x3_S512x4096_1_1_0_0_n_n.contr.Idx) :
    (dot_S512x3_S4096x3_S512x4096_1_1_0_0_n_n.lhsIdx i p 0).val = (i 0).val := by
  unfold DotDims.lhsIdx
  rw [dif_neg (show ¬(0 : Fin S512x3.rank) ∈ dot_S512x3_S4096x3_S512x4096_1_1_0_0_n_n.lhsBatch by decide), dif_pos (show (0 : Fin S512x3.rank) ∈ dot_S512x3_S4096x3_S512x4096_1_1_0_0_n_n.lhsNonContracting by decide)]
  rfl
theorem lhs_inner_1 (i : S512x4096.Idx) (p : dot_S512x3_S4096x3_S512x4096_1_1_0_0_n_n.contr.Idx) :
    (dot_S512x3_S4096x3_S512x4096_1_1_0_0_n_n.lhsIdx i p 1).val = (p ⟨0, by decide⟩).val :=
  dot_S512x3_S4096x3_S512x4096_1_1_0_0_n_n.lhsIdx_val_of_single rfl i p
theorem rhs_inner_0 (i : S512x4096.Idx) (p : dot_S512x3_S4096x3_S512x4096_1_1_0_0_n_n.contr.Idx) :
    (dot_S512x3_S4096x3_S512x4096_1_1_0_0_n_n.rhsIdx i p 0).val = (i 1).val := by
  unfold DotDims.rhsIdx
  rw [dif_neg (show ¬(0 : Fin S4096x3.rank) ∈ dot_S512x3_S4096x3_S512x4096_1_1_0_0_n_n.rhsBatch by decide), dif_pos (show (0 : Fin S4096x3.rank) ∈ dot_S512x3_S4096x3_S512x4096_1_1_0_0_n_n.rhsNonContracting by decide)]
  rfl
theorem rhs_inner_1 (i : S512x4096.Idx) (p : dot_S512x3_S4096x3_S512x4096_1_1_0_0_n_n.contr.Idx) :
    (dot_S512x3_S4096x3_S512x4096_1_1_0_0_n_n.rhsIdx i p 1).val = (p ⟨0, by decide⟩).val :=
  dot_S512x3_S4096x3_S512x4096_1_1_0_0_n_n.rhsIdx_val_of_single rfl i p

/-- An inner product at `(r, q)`: the sum over the three coordinates of the products. -/
theorem inner_apply (x0 : Vec Ideal S1x512x3 .f32) (x1 : Vec Ideal S1x4096x3 .f32) (r : Fin 512) (q : Fin 4096) :
    inner x0 x1 (ix2 r q) = ∑ k : Fin 3, x0 (ix3 (0 : Fin 1) r k) * x1 (ix3 (0 : Fin 1) q k) := by
  unfold inner
  simp only [matmul]
  rw [Ideal.matmul_constant_zero_apply, ← Equiv.sum_comp (ValueIdx.contrEquiv1 dot_S512x3_S4096x3_S512x4096_1_1_0_0_n_n 3 rfl rfl).symm]
  refine Finset.sum_congr rfl fun k _ => ?_
  have hk := ValueIdx.contrEquiv1_symm_val dot_S512x3_S4096x3_S512x4096_1_1_0_0_n_n 3 rfl rfl k
  have el : dot_S512x3_S4096x3_S512x4096_1_1_0_0_n_n.lhsIdx (ix2 r q) ((ValueIdx.contrEquiv1 dot_S512x3_S4096x3_S512x4096_1_1_0_0_n_n 3 rfl rfl).symm k) = ix2 r k := funext fun a => Fin.ext (by
    match a with
    | ⟨0, _⟩ => exact lhs_inner_0 _ _
    | ⟨1, _⟩ => exact (lhs_inner_1 _ _).trans hk)
  have er : dot_S512x3_S4096x3_S512x4096_1_1_0_0_n_n.rhsIdx (ix2 r q) ((ValueIdx.contrEquiv1 dot_S512x3_S4096x3_S512x4096_1_1_0_0_n_n 3 rfl rfl).symm k) = ix2 q k := funext fun a => Fin.ext (by
    match a with
    | ⟨0, _⟩ => exact rhs_inner_0 _ _
    | ⟨1, _⟩ => exact (rhs_inner_1 _ _).trans hk)
  rw [el, er, shapeCast_1ab_ab_apply, shapeCast_1ab_ab_apply]

/-- The distance payload at `(r, q)` is the expanded squared distance. -/
theorem pay2_apply (x0 : Vec Ideal S1x512x3 .f32) (x1 : Vec Ideal S1x4096x3 .f32) (r : Fin 512) (q : Fin 4096) :
    k0_pay2 x0 x1 (ix2 r q) = bdist x0 x1 r q := by
  rw [pay2_eq]
  show rowNorms x0 (ix2 r q) - Chamfer.two * inner x0 x1 (ix2 r q) + colNorms x1 (ix2 r q) = _
  rw [rowNorms_apply, inner_apply, colNorms_apply]
  rfl

/-- The row payload at `(0, r, 0)`: the least squared distance from point `r` of `x0` to a point of `x1`. -/
theorem pay3_apply (x0 : Vec Ideal S1x512x3 .f32) (x1 : Vec Ideal S1x4096x3 .f32) (u : Fin 1) (r : Fin 512) (w : Fin 1) :
    k0_pay3 x0 x1 (ix3 u r w)
      = (Finset.univ : Finset (Fin 4096)).fold min Chamfer.inf (fun q => bdist x0 x1 r q) := by
  unfold k0_pay3
  refine (shapeCast_ab_1ab_apply _ _ u r w).trans ((shapeCast_a_a1_apply _ _ r w).trans
    ((multiReduction_minimumf_rows_apply _ _ _ _ _ r).trans ?_))
  exact congrArg (fun f => (Finset.univ : Finset (Fin 4096)).fold min Chamfer.inf f) (funext fun q => pay2_apply x0 x1 r q)

/-- The column payload at `(0, 0, q)`: the block's previous entry, lowered to the least squared distance from a point of
    `x0` to point `q` of `x1` if that is smaller. -/
theorem pay15_apply (x0 : Vec Ideal S1x512x3 .f32) (x1 : Vec Ideal S1x4096x3 .f32) (v : Vec Ideal S1x1x4096 .f32)
    (u w : Fin 1) (q : Fin 4096) :
    k0_pay1 (k0_pay5 x0 x1 v) (ix3 u w q)
      = min (v (ix3 (0 : Fin 1) (0 : Fin 1) q)) ((Finset.univ : Finset (Fin 512)).fold min Chamfer.inf (fun r => bdist x0 x1 r q)) := by
  unfold k0_pay1
  refine (shapeCast_ab_1ab_apply _ _ u w q).trans ?_
  unfold k0_pay5
  have hw : w = 0 := Subsingleton.elim _ _
  subst hw
  show min (shapeCast S1x4096 v shapeCasts_S1x1x4096_S1x4096 (ix2 (0 : Fin 1) q))
      (shapeCast S1x4096 (multiReduction .minimumf [0] S4096 (k0_pay2 x0 x1) 0x7F800000#32 reduces_S512x4096_S4096 (.inl rfl) rfl)
        shapeCasts_S4096_S1x4096 (ix2 (0 : Fin 1) q)) = _
  exact congrArg₂ min (shapeCast_1ab_ab_apply v _ (0 : Fin 1) q)
    ((shapeCast_a_1a_apply _ _ (0 : Fin 1) q).trans ((multiReduction_minimumf_cols_apply _ _ _ _ _ q).trans
      (congrArg (fun f => (Finset.univ : Finset (Fin 512)).fold min Chamfer.inf f) (funext fun r => pay2_apply x0 x1 r q))))

/-- The reset payload is `+∞` everywhere. -/
theorem pay4_apply (u w : Fin 1) (q : Fin 4096) : k0_pay4 (F := Ideal) (ix3 u w q) = Chamfer.inf := by
  unfold k0_pay4
  exact shapeCast_ab_1ab_apply _ _ u w q

end Cert.Chamfer.KI

end
-- ==== Proof.Blocks.lean ====
/-
  The input blocks of a grid point, read as entries of the two argument arrays.

  The grid is 16 batches by 8 tiles of 512 points; point `t` is batch `t / 8`, tile `t % 8`. The first window's block at
  `t` is rows `512·(t % 8) … 512·(t % 8) + 511` of batch `t / 8` of the first cloud; the second window's block is the whole
  of batch `t / 8` of the second cloud. So the table of squared distances the body forms from the two blocks is the table of
  squared distances of the two clouds at those rows (`bdist_blk`).
-/
import proofs.«152326_j19705309954521_1_alg».proof.Proof.Gen.KernelIdeal.Frame
import proofs.«152326_j19705309954521_1_alg».proof.Proof.Payload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.Chamfer.KI

open Cert.KernelIdeal Cert.KernelIdeal.Gen

variable (m : (ℓ : Loc nD τ sig) → Buf (Elt Ideal) ℓ)

/-- The first cloud, as the region finds it. -/
abbrev X (c : Dev nD) : Chamfer.Clouds := V m c main_arg0
/-- The second cloud, as the region finds it. -/
abbrev Y (c : Dev nD) : Chamfer.Clouds := V m c main_arg1
/-- The 512 points of the first cloud that point `t` works on. -/
abbrev pblk (c : Dev nD) (t : Fin cfg0.N) : Vec Ideal S1x512x3 .f32 := iblk m c 0 t
/-- The 4096 points of the second cloud that point `t` works on. -/
abbrev tblk (c : Dev nD) (t : Fin cfg0.N) : Vec Ideal S1x4096x3 .f32 := iblk m c 1 t

theorem N128 : cfg0.N = 128 := N_0

/-- The batch of a grid point. -/
def bat (t : Fin cfg0.N) : Fin 16 := ⟨t.val / 8, by have := t.isLt; have := N128; omega⟩
/-- Row `r` of a grid point's tile, as a point of the cloud. -/
def row (t : Fin cfg0.N) (r : Fin 512) : Fin 4096 := ⟨512 * (t.val % 8) + r.val, by have := r.isLt; omega⟩

/-- The four windows' block indices at every grid point, decided over the grid. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- Entry `(0, r, k)` of the first block at `t` is coordinate `k` of point `512·(t % 8) + r` of batch `t / 8`. -/
theorem pblk_apply (c : Dev nD) (t : Fin cfg0.N) (r : Fin 512) (k : Fin 3) :
    pblk m c t (ix3 (0 : Fin 1) r k) = X m c (ix3 (bat t) (row t r) k) := by
  obtain ⟨⟨e0, e1, e2⟩, -⟩ := idx_facts t
  unfold pblk iblk
  rw [View.read_apply]
  show V m c main_arg0 _ = V m c main_arg0 _
  congr 1
  funext a
  apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 3 + 1 * k.val = k.val; omega

/-- Entry `(0, q, k)` of the second block at `t` is coordinate `k` of point `q` of batch `t / 8`. -/
theorem tblk_apply (c : Dev nD) (t : Fin cfg0.N) (q : Fin 4096) (k : Fin 3) :
    tblk m c t (ix3 (0 : Fin 1) q k) = Y m c (ix3 (bat t) q k) := by
  obtain ⟨-, ⟨e0, e1, e2⟩, -⟩ := idx_facts t
  unfold tblk iblk
  rw [View.read_apply]
  show V m c main_arg1 _ = V m c main_arg1 _
  congr 1
  funext a
  apply Fin.ext
  match a with
  | ⟨0, _⟩ => show win0_1.index t (0 : Fin 3) * 1 + 1 * 0 = t.val / 8; omega
  | ⟨1, _⟩ => show win0_1.index t (1 : Fin 3) * 4096 + 1 * q.val = q.val; omega
  | ⟨2, _⟩ => show win0_1.index t (2 : Fin 3) * 3 + 1 * k.val = k.val; omega

/-- The squared distances the body forms from the two blocks are those of the two clouds. -/
theorem bdist_blk (c : Dev nD) (t : Fin cfg0.N) (r : Fin 512) (q : Fin 4096) :
    bdist (pblk m c t) (tblk m c t) r q = Chamfer.dist (X m c) (Y m c) (bat t) (row t r) q := by
  unfold bdist Chamfer.dist Chamfer.sq Chamfer.cross
  simp only [pblk_apply, tblk_apply]

end Cert.Chamfer.KI

end
-- ==== Proof.Pieces.lean ====
/-
  What one grid point of the kernel leaves in its two output blocks, as terms of the body's arithmetic.

  The body stores the row-minimum block once, and the column-minimum block once (after, at a first point of a batch,
  resetting it to `+∞` and reading it back). Reading the found stores back through the whole staging buffers gives, at any
  float instance:
    • the row block is the row-minimum payload of the two input blocks, in both cases;
    • the column block is `min(previous, column minimum of this tile)`, where `previous` is the reset value `+∞` at a
      first point and the block's running contents otherwise.
-/
import proofs.«152326_j19705309954521_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Chamfer.KI

open Cert.KernelIdeal Cert.KernelIdeal.Gen

variable {F : FTy → Type} [FloatOps F]

/-- The origin of a rank-3 block. -/
theorem hz : (![0, 0, 0] : Fin 3 → Nat) = fun _ => 0 := funext fun a => by fin_cases a <;> rfl

/-- At a first point of a batch the row block ends at the row-minimum payload of the two input blocks. -/
theorem rowA (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x1x4096 .f32) (h5 : a5.IsWhole) (hc : cond0_0 i)
    (x0 : Vec F S1x512x3 .f32) (x1 : Vec F S1x4096x3 .f32) :
    out0_A_2 c i a2 h2 a3 h3 a4 h4 a5 h5 hc x0 x1 = k0_pay3 x0 x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S1x512x3) hz,
    View.ld_unit_zero (S := S1x4096x3) hz]

/-- At a first point of a batch the column block is reset to `+∞`, read back, and ends at the minimum of that and this
    tile's column minimum. -/
theorem colA (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x1x4096 .f32) (h5 : a5.IsWhole) (hc : cond0_0 i)
    (x0 : Vec F S1x512x3 .f32) (x1 : Vec F S1x4096x3 .f32) :
    out0_A_3 c i a2 h2 a3 h3 a4 h4 a5 h5 hc x0 x1 = k0_pay1 (k0_pay5 x0 x1 k0_pay4) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x4096) hz]
  simp only [View.readAt_eq_ld, h2.read_unread, h3.read_unread, View.ld_unit_zero (S := S1x512x3) hz,
    View.ld_unit_zero (S := S1x4096x3) hz, View.readCov_unit_zero (S := S1x1x4096) _ hz]

/-- At a later point of a batch the row block ends at the row-minimum payload of the two input blocks. -/
theorem rowB (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x1x4096 .f32) (h5 : a5.IsWhole) (hc : ¬cond0_0 i)
    (x0 : Vec F S1x512x3 .f32) (x1 : Vec F S1x4096x3 .f32) (xo3 : Vec F S1x1x4096 .f32) :
    out0_B_2 c i a2 h2 a3 h3 a4 h4 a5 h5 hc x0 x1 xo3 = k0_pay3 x0 x1 := by
  unfold out0_B_2
  rw [View.read_writes_eq_canon _ _ _ (cover0_B_2 c i a2 h2 a3 h3 a4 h4 a5 h5 hc x0 x1 xo3)]
  unfold kernelRun0_B
  dsimp only
  sl_unfold_words
  rw [View.canon_unit_zero hz]
  simp only [View.readAt_eq_ld, h2.read_unread, h3.read_unread, View.ld_unit_zero (S := S1x512x3) hz,
    View.ld_unit_zero (S := S1x4096x3) hz]

/-- At a later point of a batch the column block, holding `xo3`, ends at the minimum of `xo3` and this tile's column
    minimum. -/
theorem colB (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x1x4096 .f32) (h5 : a5.IsWhole) (hc : ¬cond0_0 i)
    (x0 : Vec F S1x512x3 .f32) (x1 : Vec F S1x4096x3 .f32) (xo3 : Vec F S1x1x4096 .f32) :
    out0_B_3 c i a2 h2 a3 h3 a4 h4 a5 h5 hc x0 x1 xo3 = k0_pay1 (k0_pay5 x0 x1 xo3) := by
  unfold out0_B_3
  rw [View.read_writes_eq_canon _ _ _ (cover0_B_3 c i a2 h2 a3 h3 a4 h4 a5 h5 hc x0 x1 xo3)]
  unfold kernelRun0_B
  dsimp only
  sl_unfold_words
  rw [View.canon_unit_zero hz]
  simp only [View.readAt_eq_ld, h2.read_unread, h3.read_unread, h5.read_unread, View.ld_unit_zero (S := S1x512x3) hz,
    View.ld_unit_zero (S := S1x4096x3) hz, View.ld_unit_zero (S := S1x1x4096) hz]

end Cert.Chamfer.KI

end
-- ==== Proof.Invariant.lean ====
/-
  What the two output blocks hold after each grid point.

  The row block is written once per point and depends on that point's inputs only: after point `t` its entry `r` is the
  least squared distance from point `512·(t % 8) + r` of batch `t / 8` of the first cloud to a point of the second
  (`rows_eq`).

  The column block is carried along the eight tiles of a batch. After point `t` its entry `q` is the least squared distance
  from point `q` of the second cloud to one of the first `512·(t % 8 + 1)` points of the first (`cols_eq`): by induction
  on the point — at a first point of a batch the block is reset to `+∞`, the minimum over no points, and the tile's own
  column minimum is taken into it; at a later point the block still holds what the point before left, which belongs to the
  same batch, and the tile's column minimum is taken into that (`Chamfer.colPart_succ`).
-/
import proofs.«152326_j19705309954521_1_alg».proof.Proof.Blocks
import proofs.«152326_j19705309954521_1_alg».proof.Proof.Pieces

noncomputable section

open Idealize.ShloMosaic Idealize.ShloMosaic.TcCoe Idealize.SL.Sem Idealize.ShloMosaic.ValueIdx
open Idealize.ShloMosaic.Pipeline (Dat)

namespace Cert.Chamfer.KI

open Cert.KernelIdeal Cert.KernelIdeal.Gen

variable (m : (ℓ : Loc nD τ sig) → Buf (Elt Ideal) ℓ)

/-- The row payload of a point's blocks is the row minimum of the clouds at the point's rows. -/
theorem rowpay_blk (c : Dev nD) (t : Fin cfg0.N) (u : Fin 1) (r : Fin 512) (w : Fin 1) :
    k0_pay3 (pblk m c t) (tblk m c t) (ix3 u r w) = Chamfer.rowMin (X m c) (Y m c) (bat t) (row t r) := by
  rw [pay3_apply]
  unfold Chamfer.rowMin
  exact congrArg (fun f => (Finset.univ : Finset (Fin 4096)).fold min Chamfer.inf f) (funext fun q => bdist_blk m c t r q)

/-- After point `t` the row block holds the row minima of the point's 512 rows. -/
theorem rows_eq (c : Dev nD) (t : Fin cfg0.N) (u : Fin 1) (r : Fin 512) (w : Fin 1) :
    (outsAt0 m c t.val t.isLt).1 (ix3 u r w) = Chamfer.rowMin (X m c) (Y m c) (bat t) (row t r) := by
  by_cases h0 : t.val % 8 = 0
  · rw [outsAt0_A m c t h0]
    dsimp only
    exact (congrFun (rowA (F := Ideal) c (grid0.coords t) (ms0_0 t) (hs0_0 t) (ms0_1 t) (hs0_1 t) (ms0_2 t) (hs0_2 t) (ms0_3 t) (hs0_3 t) ((hcond0_0 t).mpr h0) (pblk m c t) (tblk m c t)) (ix3 u r w)).trans (rowpay_blk m c t u r w)
  · rw [outsAt0_B m c t h0]
    dsimp only
    exact (congrFun (rowB (F := Ideal) c (grid0.coords t) (ms0_0 t) (hs0_0 t) (ms0_1 t) (hs0_1 t) (ms0_2 t) (hs0_2 t) (ms0_3 t) (hs0_3 t) (fun h => h0 ((hcond0_0 t).mp h)) (pblk m c t) (tblk m c t)
      (outsAt0 m c (t.val - 1) (Nat.lt_of_le_of_lt (Nat.sub_le _ _) t.isLt)).2) (ix3 u r w)).trans (rowpay_blk m c t u r w)

/-- One step of the running column minimum: if the block's entry `q` holds the minimum over the first `512·j` points, and
    `t` is tile `j` of its batch, the column payload at `q` is the minimum over the first `512·(j + 1)` points. -/
theorem col_step (c : Dev nD) (t : Fin cfg0.N) (j : ℕ) (hj : t.val % 8 = j) (v : Vec Ideal S1x1x4096 .f32) (q : Fin 4096)
    (hv : v (ix3 (0 : Fin 1) (0 : Fin 1) q) = Chamfer.colPart (X m c) (Y m c) (bat t) q j) (u w : Fin 1) :
    k0_pay1 (k0_pay5 (pblk m c t) (tblk m c t) v) (ix3 u w q) = Chamfer.colPart (X m c) (Y m c) (bat t) q (j + 1) := by
  rw [pay15_apply, hv, Chamfer.colPart_succ (X m c) (Y m c) (bat t) q j (by omega) (row t)
    (fun r => by show 512 * (t.val % 8) + r.val = _; rw [hj])]
  exact congrArg (min _) (congrArg (fun f => (Finset.univ : Finset (Fin 512)).fold min Chamfer.inf f)
    (funext fun r => bdist_blk m c t r q))

/-- The reset block holds the minimum over no points. -/
theorem reset_eq (c : Dev nD) (t : Fin cfg0.N) (q : Fin 4096) :
    k0_pay4 (F := Ideal) (ix3 (0 : Fin 1) (0 : Fin 1) q) = Chamfer.colPart (X m c) (Y m c) (bat t) q 0 :=
  (pay4_apply 0 0 q).trans (Chamfer.colPart_zero _ _ _ _).symm

/-- After point `n` the column block holds the column minima over the first `512·(n % 8 + 1)` points of the point's batch. -/
theorem cols_eq (c : Dev nD) : ∀ (n : ℕ) (hn : n < cfg0.N) (u w : Fin 1) (q : Fin 4096),
    (outsAt0 m c n hn).2 (ix3 u w q) = Chamfer.colPart (X m c) (Y m c) (bat ⟨n, hn⟩) q (n % 8 + 1)
  | 0, hn, u, w, q => by
    rw [outsAt0_A m c ⟨0, hn⟩ rfl]
    dsimp only
    refine (congrFun (colA (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (pblk m c ⟨0, hn⟩) (tblk m c ⟨0, hn⟩)) (ix3 u w q)).trans ?_
    exact col_step m c ⟨0, hn⟩ 0 rfl (k0_pay4 (F := Ideal)) q (reset_eq m c ⟨0, hn⟩ q) u w
  | n + 1, hn, u, w, q => by
    by_cases h0 : (n + 1) % 8 = 0
    · rw [outsAt0_A m c ⟨n + 1, hn⟩ h0]
      dsimp only
      refine (congrFun (colA (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (pblk m c ⟨n + 1, hn⟩) (tblk m c ⟨n + 1, hn⟩)) (ix3 u w q)).trans ?_
      rw [h0]
      exact col_step m c ⟨n + 1, hn⟩ 0 h0 (k0_pay4 (F := Ideal)) q (reset_eq m c ⟨n + 1, hn⟩ q) u w
    · rw [outsAt0_B m c ⟨n + 1, hn⟩ h0]
      dsimp only
      refine (congrFun (colB (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (pblk m c ⟨n + 1, hn⟩) (tblk m c ⟨n + 1, hn⟩)
        (outsAt0 m c n (Nat.lt_of_succ_lt hn)).2) (ix3 u w q)).trans ?_
      have ih := cols_eq c n (Nat.lt_of_succ_lt hn) 0 0 q
      have hb : bat ⟨n, Nat.lt_of_succ_lt hn⟩ = bat ⟨n + 1, hn⟩ := Fin.ext (by show n / 8 = (n + 1) / 8; omega)
      have hm : (n + 1) % 8 = n % 8 + 1 := by omega
      rw [hm]
      exact col_step m c ⟨n + 1, hn⟩ (n % 8 + 1) hm (outsAt0 m c n (Nat.lt_of_succ_lt hn)).2 q (by rw [ih, hb]) u w

end Cert.Chamfer.KI

end
-- ==== Proof.Arrays.lean ====
/-
  The two result arrays of the kernel region after the run.

  The row-minimum array `[16, 4096, 1]` is written back at every grid point: point `t` writes rows
  `512·(t % 8) … + 511` of batch `t / 8`, which hold those rows' minima (`rows_eq`); the 128 blocks tile the array, so it ends
  holding, at `(b, n, 0)`, the least squared distance from point `n` of the first cloud to the second (`final_rows`).

  The column-minimum array `[16, 1, 4096]` is written back only at the last tile of each batch (points `≡ 7 mod 8`); by then the
  running minimum has met all `512·8 = 4096` points (`cols_eq`, `Chamfer.colPart_eight`); the 16 blocks tile the array, so it ends
  holding, at `(b, 0, q)`, the least squared distance from point `q` of the second cloud to the first (`final_cols`).
-/
import proofs.«152326_j19705309954521_1_alg».proof.Proof.Invariant

noncomputable section

open Idealize.ShloMosaic Idealize.ShloMosaic.TcCoe Idealize.SL.Sem Idealize.ShloMosaic.ValueIdx
open Idealize.ShloMosaic.Pipeline (Dat)

namespace Cert.Chamfer.KI

open Cert.KernelIdeal Cert.KernelIdeal.Gen

variable (m : (ℓ : Loc nD τ sig) → Buf (Elt Ideal) ℓ)

/-- The row minima as contents of the region's first result array. -/
abbrev rowArr (c : Dev nD) : Buf (Elt Ideal) ((c : Thread nD τ).loc main_v0_0) :=
  fun i => Chamfer.rowMin (X m c) (Y m c) (i 0) (i 1)
/-- The column minima as contents of the region's second result array. -/
abbrev colArr (c : Dev nD) : Buf (Elt Ideal) ((c : Thread nD τ).loc main_v0_1) :=
  fun i => Chamfer.colMin (X m c) (Y m c) (i 0) (i 2)

/-- What point `t` writes back to the first result array is block `t` of the row minima. -/
theorem flushed_rows (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after0_2]
  obtain ⟨-, -, ⟨e0, e1, e2⟩, -⟩ := idx_facts t
  funext (j : S1x512x1.Idx)
  obtain ⟨u, r, w, rfl⟩ : ∃ (u : Fin 1) (r : Fin 512) (w : Fin 1), j = ix3 u r w := ⟨j 0, j 1, j 2, eq_ix3 j⟩
  show (outsAt0 m c t.val t.isLt).1 (ix3 u r w) = rowArr m c (((cfg0.win 2).blk t).view.emb (ix3 u r w))
  rw [rows_eq]
  show Chamfer.rowMin (X m c) (Y m c) (bat t) (row t r)
    = Chamfer.rowMin (X m c) (Y m c) ((((cfg0.win 2).blk t).view.emb (ix3 u r w)) 0) ((((cfg0.win 2).blk t).view.emb (ix3 u r w)) 1)
  congr 1
  · apply Fin.ext
    show t.val / 8 = win0_2.index t (0 : Fin 3) * 1 + 1 * u.val
    have := u.isLt; omega
  · apply Fin.ext
    show 512 * (t.val % 8) + r.val = win0_2.index t (1 : Fin 3) * 512 + 1 * r.val
    omega

/-- An index of the first result array is in point `t`'s block iff each coordinate is in the block's range. -/
theorem mem_rows (t : Fin cfg0.N) (i : S16x4096x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_0).slice (win0_2.rect t)).set ↔ _
  rw [View.set_slice_whole, Rect.mem_set_unit]
  exact Iff.rfl

/-- Every entry of the first result array is written back by the point of its batch and tile. -/
theorem cover_rows (i : S16x4096x1.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  have hN := N128
  refine ⟨⟨8 * (i 0).val + (i 1).val / 512, by omega⟩, flush0_2 _, ?_⟩
  obtain ⟨-, -, ⟨e0, e1, e2⟩, -⟩ := idx_facts ⟨8 * (i 0).val + (i 1).val / 512, by omega⟩
  rw [mem_rows]
  intro a
  match a with
  | ⟨0, _⟩ =>
    show win0_2.index _ (0 : Fin 3) * 1 ≤ (i 0).val ∧ (i 0).val < win0_2.index _ (0 : Fin 3) * 1 + 1
    rw [e0]; dsimp only; omega
  | ⟨1, _⟩ =>
    show win0_2.index _ (1 : Fin 3) * 512 ≤ (i 1).val ∧ (i 1).val < win0_2.index _ (1 : Fin 3) * 512 + 512
    rw [e1]; dsimp only; omega
  | ⟨2, _⟩ =>
    show win0_2.index _ (2 : Fin 3) * 1 ≤ (i 2).val ∧ (i 2).val < win0_2.index _ (2 : Fin 3) * 1 + 1
    rw [e2]; omega

/-- The first result array ends holding the row minima. -/
theorem final_rows (c : Dev nD) : (dats m 0 c).arrAt 2 cfg0.N = rowArr m c :=
  (dats m 0 c).arrAt_eq_of_cover 2 (rowArr m c) (fun t _ => flushed_rows m c t) cover_rows

/-- What a last tile's point writes back to the second result array is its batch's block of the column minima. -/
theorem flushed_cols (c : Dev nD) (t : Fin cfg0.N) (hf : (cfg0.win 3).flush t = true) :
    (dats m 0 c).flushed 3 t = ((cfg0.win 3).blk t).view.read (Elt Ideal) (colArr m c) := by
  have h7 : t.val % 8 = 7 := (flush0_3 t).mp hf
  show (cfg0.win 3).cut (grid0.coords t) ((dats m 0 c).after 3 t) = _
  rw [after0_3]
  obtain ⟨-, -, -, ⟨e0, e1, e2⟩⟩ := idx_facts t
  funext (j : S1x1x4096.Idx)
  obtain ⟨u, w, q, rfl⟩ : ∃ (u : Fin 1) (w : Fin 1) (q : Fin 4096), j = ix3 u w q := ⟨j 0, j 1, j 2, eq_ix3 j⟩
  show (outsAt0 m c t.val t.isLt).2 (ix3 u w q) = colArr m c (((cfg0.win 3).blk t).view.emb (ix3 u w q))
  rw [cols_eq m c t.val t.isLt u w q, h7, Chamfer.colPart_eight]
  show Chamfer.colMin (X m c) (Y m c) (bat t) q
    = Chamfer.colMin (X m c) (Y m c) ((((cfg0.win 3).blk t).view.emb (ix3 u w q)) 0) ((((cfg0.win 3).blk t).view.emb (ix3 u w q)) 2)
  congr 1
  · apply Fin.ext
    show t.val / 8 = win0_3.index t (0 : Fin 3) * 1 + 1 * u.val
    have := u.isLt; omega
  · apply Fin.ext
    show q.val = win0_3.index t (2 : Fin 3) * 4096 + 1 * q.val
    omega

/-- An index of the second result array is in point `t`'s block iff each coordinate is in the block's range. -/
theorem mem_cols (t : Fin cfg0.N) (i : S16x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every entry of the second result array is written back by the last tile's point of its batch. -/
theorem cover_cols (i : S16x1x4096.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4096 := (i 2).isLt
  have hN := N128
  refine ⟨⟨8 * (i 0).val + 7, by omega⟩, (flush0_3 _).mpr (by dsimp only; omega), ?_⟩
  obtain ⟨-, -, -, ⟨e0, e1, e2⟩⟩ := idx_facts ⟨8 * (i 0).val + 7, by omega⟩
  rw [mem_cols]
  intro a
  match a with
  | ⟨0, _⟩ =>
    show win0_3.index _ (0 : Fin 3) * 1 ≤ (i 0).val ∧ (i 0).val < win0_3.index _ (0 : Fin 3) * 1 + 1
    rw [e0]; dsimp only; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 4096 ≤ (i 2).val ∧ (i 2).val < win0_3.index _ (2 : Fin 3) * 4096 + 4096
    rw [e2]; omega

/-- The second result array ends holding the column minima. -/
theorem final_cols (c : Dev nD) : (dats m 0 c).arrAt 3 cfg0.N = colArr m c :=
  (dats m 0 c).arrAt_eq_of_cover 3 (colArr m c) (fun t hf => flushed_cols m c t hf) cover_cols

end Cert.Chamfer.KI

end
-- ==== Proof.Loss.lean ====
/-
  The Chamfer loss as ONE function of the two tables of minima.

  Both programs end the same way: each `[16, 4096]` table is summed along its 4096 entries and divided by 4096 (a mean per
  batch), the two means are added, and the 16 sums are summed and divided by 16. `loss` is that tail, written once over the
  shapes' literals, so that the two sides meet by applying it to equal tables and it is never opened.
-/
import proofs.«152326_j19705309954521_1_alg».proof.Proof.Spec

noncomputable section

namespace Cert.Chamfer

open Idealize.ShloMosaic Idealize.ShloMosaic.ValueIdx

theorem sums_rows : (⟨2, ![16, 4096]⟩ : Shape).ReducesTo [1] ⟨1, ![16]⟩ := by decide
theorem sums_all : (⟨1, ![16]⟩ : Shape).ReducesTo [0] ⟨0, ![]⟩ := by decide
theorem one_elt : 0 < (⟨0, ![]⟩ : Shape).numel := by decide
theorem spreads : (⟨0, ![]⟩ : Shape).BroadcastsInDim ⟨1, ![16]⟩ (![] : Fin 0 → Fin (⟨1, ![16]⟩ : Shape).rank) := by decide

/-- The mean over the batch of (mean of the row minima + mean of the column minima). -/
def loss {F : FTy → Type} [FloatOps F] (R C : FVec F ⟨2, ![16, 4096]⟩ .f32) : FVec F ⟨0, ![]⟩ .f32 :=
  Host.divf
    (Host.reduceAdd
      (addf
        (Host.divf (Host.reduceAdd R (constant ⟨0, ![]⟩ .f32 0x00000000#32) sums_rows one_elt)
          (broadcastInDim ⟨1, ![16]⟩ ![] spreads (constant ⟨0, ![]⟩ .f32 0x45800000#32)))
        (Host.divf (Host.reduceAdd C (constant ⟨0, ![]⟩ .f32 0x00000000#32) sums_rows one_elt)
          (broadcastInDim ⟨1, ![16]⟩ ![] spreads (constant ⟨0, ![]⟩ .f32 0x45800000#32))))
      (constant ⟨0, ![]⟩ .f32 0x00000000#32) sums_all one_elt)
    (constant ⟨0, ![]⟩ .f32 0x41800000#32)

/-- The table of row minima: entry `(b, n)` is the least squared distance from point `n` of `X` to a point of `Y`. -/
def rowMins (X Y : Clouds) : FVec Ideal ⟨2, ![16, 4096]⟩ .f32 := fun i => rowMin X Y (i 0) (i 1)
/-- The table of column minima: entry `(b, m)` is the least squared distance from point `m` of `Y` to a point of `X`. -/
def colMins (X Y : Clouds) : FVec Ideal ⟨2, ![16, 4096]⟩ .f32 := fun i => colMin X Y (i 0) (i 1)

end Cert.Chamfer

end
-- ==== Proof.KernelRun.lean ====
/-
  The idealized kernel program's run, read: its result is the loss of the two tables of minima.

  After the region the program drops the unit axis of each result array — `[16, 4096, 1]` and `[16, 1, 4096]` both become
  `[16, 4096]`, entry `(b, n)` reading `(b, n, 0)` and `(b, 0, n)` (same row-major position) — and applies the shared tail
  `Chamfer.loss`. The region leaves the arrays at the row and column minima (`final_rows`, `final_cols`), so the result is
  the loss of those tables, and the two argument arrays are as they were.
-/
import proofs.«152326_j19705309954521_1_alg».proof.Proof.Arrays
import proofs.«152326_j19705309954521_1_alg».proof.Proof.Loss
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Chamfer.KI

open Cert.KernelIdeal Cert.KernelIdeal.Gen

variable (m : (ℓ : Loc nD τ sig) → Buf (Elt Ideal) ℓ) (ρ : Dev nD → PrngReg)

/-- The first result array with its unit axis dropped is the table of row minima. -/
theorem rows_table (c : Dev nD) :
    shapeCast S16x4096 (rowArr m c) shapeCasts_S16x4096x1_S16x4096 = Chamfer.rowMins (X m c) (Y m c) := by
  funext i
  obtain ⟨b, n, rfl⟩ : ∃ (b : Fin 16) (n : Fin 4096), i = ix2 b n := ⟨i 0, i 1, eq_ix2 i⟩
  refine (shapeCast_apply (rowArr m c) shapeCasts_S16x4096x1_S16x4096 (ix2 b n) (ix3 b n (0 : Fin 1)) ?_).trans rfl
  show (S16x4096x1.rowMajor (ix3 b n (0 : Fin 1))).val = (S16x4096.rowMajor (ix2 b n)).val
  rw [Shape.rowMajor_val_three, Shape.rowMajor_val_two]
  show (b.val * 4096 + n.val) * 1 + 0 = b.val * 4096 + n.val
  omega

/-- The second result array with its unit axis dropped is the table of column minima. -/
theorem cols_table (c : Dev nD) :
    shapeCast S16x4096 (colArr m c) shapeCasts_S16x1x4096_S16x4096 = Chamfer.colMins (X m c) (Y m c) := by
  funext i
  obtain ⟨b, q, rfl⟩ : ∃ (b : Fin 16) (q : Fin 4096), i = ix2 b q := ⟨i 0, i 1, eq_ix2 i⟩
  refine (shapeCast_apply (colArr m c) shapeCasts_S16x1x4096_S16x4096 (ix2 b q) (ix3 b (0 : Fin 1) q) ?_).trans rfl
  show (S16x1x4096.rowMajor (ix3 b (0 : Fin 1) q)).val = (S16x4096.rowMajor (ix2 b q)).val
  rw [Shape.rowMajor_val_three, Shape.rowMajor_val_two]
  show (b.val * 1 + 0) * 4096 + q.val = b.val * 4096 + q.val
  omega

/-- The program's result after the lines that follow the region: the loss of the two tables of minima. -/
theorem tail_eq (c : Dev nD) :
    Pipeline.afterTail₀ cfgs (dats m) 0 (V0 m) [hostOps1] c main_v11
      = Chamfer.loss (F := Ideal) (Chamfer.rowMins (X m c) (Y m c)) (Chamfer.colMins (X m c) (Y m c)) := by
  have h2 : Pipeline.withArrays (cfgs 0).spec c (V0 m c) (fun w => (dats m 0 c).arrAt w (cfgs 0).N) (Proc.devRef .tc main_v0_0)
      = rowArr m c :=
    (Pipeline.withArrays_arr spec0 launch0.win.arr_inj c (V0 m c) (fun w => (dats m 0 c).arrAt w (cfgs 0).N) 2).trans (final_rows m c)
  have h3 : Pipeline.withArrays (cfgs 0).spec c (V0 m c) (fun w => (dats m 0 c).arrAt w (cfgs 0).N) (Proc.devRef .tc main_v0_1)
      = colArr m c :=
    (Pipeline.withArrays_arr spec0 launch0.win.arr_inj c (V0 m c) (fun w => (dats m 0 c).arrAt w (cfgs 0).N) 3).trans (final_cols m c)
  rw [← rows_table, ← cols_table]
  unfold Pipeline.afterTail₀
  show StableHlo.after hostOps1 _ (Proc.devRef .tc main_v11) = _
  after_results
  rw [h2, h3]
  rfl

/-- Every weakly fair execution of the idealized kernel program terminates with its result at the loss of the two tables
    of minima of the argument arrays, and the argument arrays unchanged. -/
theorem run : θ_run defs (onTc (τ := τ) (main (F := Ideal))) ⟨m, fun _ => 0, ρ⟩ fun r => ∀ c : Dev nD,
      r.2.mem ((c.tc : Thread nD τ).loc main_v11)
        = Chamfer.loss (F := Ideal) (Chamfer.rowMins (X m c) (Y m c)) (Chamfer.colMins (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v11 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.KI

end
-- ==== Proof.RefSide.lean ====
/-
  The reference program's result, read as the loss of the two tables of minima.

  The reference forms the whole `[16, 4096, 4096]` table of squared distances in the same association
  `(|x|² − 2·⟨x, y⟩) + |y|²` — the norms as sums from `0` over the three coordinates, the inner products as one contraction
  over them — (`dist_apply`), takes its minimum along the last axis and along the middle axis, each a fold of `min` from
  `+∞` (`rows_apply`, `cols_apply`), and ends with the shared tail `Chamfer.loss` (`result_eq`).
-/
import proofs.«152326_j19705309954521_1_alg».proof.Proof.Gen.ReferenceIdeal.Run
import proofs.«152326_j19705309954521_1_alg».proof.Proof.Gen.ReferenceIdeal.Read
import proofs.«152326_j19705309954521_1_alg».proof.Proof.Loss
import proofs.«152326_j19705309954521_1_alg».proof.Proof.LibMinReduce

noncomputable section

open Idealize.ShloMosaic Idealize.ShloMosaic.ValueIdx

namespace Cert.Chamfer.RI

open Cert.ReferenceIdeal Cert.ReferenceIdeal.Gen Cert.ReferenceIdeal.Read

/-- The reference's table of squared distances at `(b, n, m)`. -/
theorem dist_apply (X Y : Chamfer.Clouds) (b : Fin 16) (n m : Fin 4096) :
    val_main_v12 (F := Ideal) X Y (ix3 b n m) = Chamfer.dist X Y b n m := by
  have e1 : ∀ k : Fin 3, idx_main_v2 (idx_main_v5 (idx_main_v8 (ix3 b n m))) k = ix3 b n k := fun k =>
    funext fun a => Fin.ext (by match a with | ⟨0, _⟩ => rfl | ⟨1, _⟩ => rfl | ⟨2, _⟩ => rfl)
  have e2 : ∀ k : Fin 3, idx_main_v4 (idx_main_v10 (idx_main_v11 (ix3 b n m))) k = ix3 b m k := fun k =>
    funext fun a => Fin.ext (by match a with | ⟨0, _⟩ => rfl | ⟨1, _⟩ => rfl | ⟨2, _⟩ => rfl)
  have e3 : ∀ k : Fin 3, lidx_main_v0 (ix3 b n m) k = ix3 b n k := fun k =>
    funext fun a => Fin.ext (by match a with | ⟨0, _⟩ => rfl | ⟨1, _⟩ => rfl | ⟨2, _⟩ => rfl)
  have e4 : ∀ k : Fin 3, ridx_main_v0 (ix3 b n m) k = ix3 b m k := fun k =>
    funext fun a => Fin.ext (by match a with | ⟨0, _⟩ => rfl | ⟨1, _⟩ => rfl | ⟨2, _⟩ => rfl)
  rw [val_main_v12_apply, val_main_v9_apply, val_main_v8_apply, val_main_v5_apply, val_main_v2_apply, val_main_v7_apply,
    val_main_v6_apply, val_main_v0_apply, val_main_v11_apply, val_main_v10_apply, val_main_v4_apply]
  simp only [val_main_v1_apply, val_main_v3_apply, val_main_cst_apply, val_main_cst_0_apply, val_main_cst_1_apply, e1, e2, e3, e4,
    Ideal.addf_def, Ideal.subf_def, Ideal.mulf_def, Ideal.ofBits_def, Ideal.ofBits_zero_f32, zero_add]
  rfl

/-- The reference's minimum along the last axis at `(b, n)` is the row minimum. -/
theorem rows_apply (X Y : Chamfer.Clouds) (b : Fin 16) (n : Fin 4096) :
    val_main_v13 (F := Ideal) X Y (ix2 b n) = Chamfer.rowMin X Y b n := by
  unfold val_main_v13
  refine (hostReduce_minimumf_last_apply _ _ _ (by decide) _ b n).trans ?_
  unfold Chamfer.rowMin
  exact congrArg (fun f => (Finset.univ : Finset (Fin 4096)).fold min Chamfer.inf f) (funext fun q => dist_apply X Y b n q)

/-- The reference's minimum along the middle axis at `(b, m)` is the column minimum. -/
theorem cols_apply (X Y : Chamfer.Clouds) (b : Fin 16) (q : Fin 4096) :
    val_main_v14 (F := Ideal) X Y (ix2 b q) = Chamfer.colMin X Y b q := by
  unfold val_main_v14
  refine (hostReduce_minimumf_mid_apply _ _ _ (by decide) _ b q).trans ?_
  unfold Chamfer.colMin
  exact congrArg (fun f => (Finset.univ : Finset (Fin 4096)).fold min Chamfer.inf f) (funext fun n => dist_apply X Y b n q)

/-- The reference's result is the loss of the two tables of minima. -/
theorem result_eq (X Y : Chamfer.Clouds) :
    val_main_v23 (F := Ideal) X Y = Chamfer.loss (F := Ideal) (Chamfer.rowMins X Y) (Chamfer.colMins X Y) := by
  have hR : val_main_v13 (F := Ideal) X Y = Chamfer.rowMins X Y := funext fun i => by
    obtain ⟨b, n, rfl⟩ : ∃ (b : Fin 16) (n : Fin 4096), i = ix2 b n := ⟨i 0, i 1, eq_ix2 i⟩
    exact rows_apply X Y b n
  have hC : val_main_v14 (F := Ideal) X Y = Chamfer.colMins X Y := funext fun i => by
    obtain ⟨b, q, rfl⟩ : ∃ (b : Fin 16) (q : Fin 4096), i = ix2 b q := ⟨i 0, i 1, eq_ix2 i⟩
    exact cols_apply X Y b q
  rw [← hR, ← hC]
  rfl

end Cert.Chamfer.RI

end
-- ==== Proof.lean ====
/-
  The Chamfer distance between two batches of point clouds `pred, target : [16, 4096, 3]`: a kernel that never forms the
  `[16, 4096, 4096]` table of squared distances against a reference that does.

  Both programs expand the squared distance between point `n` of the first cloud and point `m` of the second as
  `(|x|² − 2·⟨x, y⟩) + |y|²` (Proof/Spec.lean), take for each point of one cloud the least distance to the other cloud, and
  return the mean over the batch of the two per-batch means (Proof/Loss.lean).

  The kernel walks a grid of 16 batches by 8 tiles of 512 points of the first cloud, the whole second cloud of the batch
  resident. At a grid point it forms the `[512, 4096]` table of its tile (Proof/Payload.lean, Proof/Blocks.lean): the norms by lane
  sums, the inner products by a matrix product over the three coordinates into a zero accumulator. The row minima of the
  tile are final and are written back at once. The column minima are carried: reset to `+∞` at a batch's first tile and
  lowered by each tile's own column minima, so that after tile `j` they are the minima over the first `512·(j + 1)` points
  (Proof/Invariant.lean, by induction along the grid) and after the eighth tile over all 4096, when they are written back
  (Proof/Arrays.lean). The reference takes each minimum in one reduction of the whole table (Proof/RefSide.lean).

  On the extended reals the two agree entry by entry with no condition on the inputs: a lane sum and the host's sum
  from `0` are the same finite sum, the matrix product and the contraction are the same sum of products, and a minimum over
  4096 points taken 512 at a time is the minimum over all of them because `c ≤ min` of a family says `c ≤` each member —
  only commutativity and associativity of `+` and the order's universal property of `min` are used, which hold at `±∞` too.
  The idealization rewrote nothing, so the kernel as printed is its own idealization.
-/
import proofs.«152326_j19705309954521_1_alg».proof.Defs
import proofs.«152326_j19705309954521_1_alg».proof.Proof.Gen.Kernel
import proofs.«152326_j19705309954521_1_alg».proof.Proof.Gen.Kernel.Frame
import proofs.«152326_j19705309954521_1_alg».proof.Proof.Gen.KernelIdeal
import proofs.«152326_j19705309954521_1_alg».proof.Proof.Gen.KernelIdeal.Frame
import proofs.«152326_j19705309954521_1_alg».proof.Proof.Gen.ReferenceIdeal
import proofs.«152326_j19705309954521_1_alg».proof.Proof.Gen.ReferenceIdeal.Run
import proofs.«152326_j19705309954521_1_alg».proof.Proof.Gen.ReferenceIdeal.Read
import proofs.«152326_j19705309954521_1_alg».proof.Proof.Gen.Pre_finite_inputs
import proofs.«152326_j19705309954521_1_alg».proof.Proof.KernelRun
import proofs.«152326_j19705309954521_1_alg».proof.Proof.RefSide
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: it runs to the end and leaves its arguments alone. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the two clouds, both programs end at the loss of the two tables of minima. -/
theorem algebraic : Cert.algebraic_KernelIdeal_ReferenceIdeal := by
  intro m ρ m' ρ' _ hagree
  refine ⟨fun c => Cert.Chamfer.loss (F := Ideal)
      (Cert.Chamfer.rowMins (Cert.Chamfer.KI.X m c) (Cert.Chamfer.KI.Y m c))
      (Cert.Chamfer.colMins (Cert.Chamfer.KI.X m c) (Cert.Chamfer.KI.Y m c)), Cert.Chamfer.KI.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Chamfer.RI.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
